-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S750000x128 : Shape := ⟨2, ![750000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S750000x128 : S_.BroadcastsInDim S750000x128 (![] : Fin 0 → Fin S750000x128.rank)
  reducesTo_S750000x128_S_d0_1 : S750000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg10 : FVec F S128 .f32) (main_arg11 : FVec F S128x128 .f32) (main_arg12 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_v33

def fn {F : FTy → Type} [FloatOps F] (main_arg0 : FVec F S750000x128 .f32) (main_arg1 : FVec F S800000x128 .f32) (main_arg2 : IVec S800000 32) (main_arg3 : IVec S800000 32) (main_arg4 : IVec S800000 32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) : IVec S_ 1 :=
  let main_v0 : FVec F S750000x128 .f32 := Host.absf main_arg0
  let main_cst : FVec F S_ .f32 := constant S_ .f32 0x7F800000#32
  let main_v1 : FVec F S750000x128 .f32 := broadcastInDim S750000x128 ![] bcast_S_S750000x128 main_cst
  let main_v2 : IVec S750000x128 1 := cmpf .olt main_v0 main_v1
  let main_c : IVec S_ 1 := constantI S_ 1 1#1
  let main_v3 : IVec S_ 1 := (fun x v => Host.reduce IntOp.andi x v reducesTo_S750000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_v13 main_v16
-- ==== Kernel.lean ====
abbrev S750000x128 : Shape := ⟨2, ![750000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S4000x128 : Shape := ⟨2, ![4000, 128]⟩
abbrev S1x128 : Shape := ⟨2, ![1, 128]⟩
abbrev S16384x128 : Shape := ⟨2, ![16384, 128]⟩
abbrev S16384 : Shape := ⟨1, ![16384]⟩
abbrev S16384x1 : Shape := ⟨2, ![16384, 1]⟩

abbrev nBuf : Space → Nat
  | .hbm => 56
  | .vmem => 16
  | .smem => 0
  | _ => 0

abbrev bufTy : (tb : Table) → Fin (tcTables nBuf tb) → BufTy
  | .hbm, ⟨0, _⟩ => ⟨S750000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S800000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S128x128, .f32⟩
  | .hbm, ⟨32, _⟩ => ⟨S128x128, .bf16⟩
  | .hbm, ⟨33, _⟩ => ⟨S128x128, .f32⟩
  | .hbm, ⟨34, _⟩ => ⟨S128x128, .bf16⟩
  | .hbm, ⟨35, _⟩ => ⟨S128x128, .f32⟩
  | .hbm, ⟨36, _⟩ => ⟨S128x128, .bf16⟩
  | .hbm, ⟨37, _⟩ => ⟨S128x128, .f32⟩
  | .hbm, ⟨38, _⟩ => ⟨S128x128, .bf16⟩
  | .hbm, ⟨39, _⟩ => ⟨S800000x128, .f32⟩
  | .hbm, ⟨40, _⟩ => ⟨S_, .f32⟩
  | .hbm, ⟨41, _⟩ => ⟨S16384x128, .f32⟩
  | .hbm, ⟨42, _⟩ => ⟨S800000x1, .i32⟩
  | .hbm, ⟨43, _⟩ => ⟨S16384x128, .f32⟩
  | .hbm, ⟨44, _⟩ => ⟨S_, .f32⟩
  | .hbm, ⟨45, _⟩ => ⟨S800000, .f32⟩
  | .hbm, ⟨46, _⟩ => ⟨S_, .f32⟩
  | .hbm, ⟨47, _⟩ => ⟨S16384, .f32⟩
  | .hbm, ⟨48, _⟩ => ⟨S800000x1, .i32⟩
  | .hbm, ⟨49, _⟩ => ⟨S16384, .f32⟩
  | .hbm, ⟨50, _⟩ => ⟨S_, .f32⟩
  | .hbm, ⟨51, _⟩ => ⟨S16384, .f32⟩
  | .hbm, ⟨52, _⟩ => ⟨S16384, .f32⟩
  | .hbm, ⟨53, _⟩ => ⟨S16384x1, .f32⟩
  | .hbm, ⟨54, _⟩ => ⟨S16384x128, .f32⟩
  | .hbm, ⟨55, _⟩ => ⟨S16384x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S128x128, .bf16⟩
  | .local _ .vmem, ⟨7, _⟩ => ⟨S128, .f32⟩
  | .local _ .vmem, ⟨8, _⟩ => ⟨S128x128, .bf16⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S128x128, .bf16⟩
  | .local _ .vmem, ⟨13, _⟩ => ⟨S128, .f32⟩
  | .local _ .vmem, ⟨14, _⟩ => ⟨S4000x128, .f32⟩
  | .local _ .vmem, ⟨15, _⟩ => ⟨S4000x128, .f32⟩
  | _, _ => ⟨S750000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  transposes_S128x128_S128x128_1_0 : S128x128.Transposes [1, 0] S128x128
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  bcast_S_S16384x128 : S_.BroadcastsInDim S16384x128 (![] : Fin 0 → Fin S16384x128.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x128_0_1 : S16384x1.BroadcastsInDim S16384x128 (![0, 1] : Fin 2 → Fin S16384x128.rank)
  gather_S750000x128_S800000x1_S800000x128_1_0_n_n_0_1_1128_wf : GatherDims.WF S750000x128 S800000x1 S800000x128 [1] [0] [] [0] [] 1 ![1, 128]
  dot_S4000x128_S128x128_S4000x128_1_0_0_1_n_n_wf : DotDims.WF S4000x128 S128x128 S4000x128 [1] [0] [0] [1] [] []
  scatter_S16384x128_S800000x1_S800000x128_1_0_0_1_wf : ScatterDims.WF S16384x128 S800000x1 S800000x128 [1] [0] [0] 1
  scatter_S16384_S800000x1_S800000_n_0_0_1_wf : ScatterDims.WF S16384 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .f32 = 32 ∨ (Rect.block (s := S800000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S800000x128.size a
  hwx0_2 : ∀ i : grid0.Coords, EltTy.bits .f32 = 32 ∨ (Rect.block (s := S800000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S800000x128.size a
  hwx0_11 : ∀ i : grid0.Coords, EltTy.bits .f32 = 32 ∨ (Rect.block (s := S800000x128) S4000x128.size (cc0_transform_11 i) (hinb0_11 i)).WholeWords (EltTy.packing .f32)

variable [Facts₀]

def gather_S750000x128_S800000x1_S800000x128_1_0_n_n_0_1_1128 : GatherDims S750000x128 S800000x1 S800000x128 where
  offsetDims := [1]
  collapsedSliceDims := [0]
  operandBatchingDims := []
  startIndicesBatchingDims := []
  startIndexMap := [0]
  indexVectorDim := 1
  sliceSizes := ![1, 128]
  wf := gather_S750000x128_S800000x1_S800000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S16384x128_S800000x1_S800000x128_1_0_0_1 : ScatterDims S16384x128 S800000x1 S800000x128 where
  updateWindowDims := [1]
  insertedWindowDims := [0]
  scatterDimsToOperandDims := [0]
  indexVectorDim := 1
  wf := scatter_S16384x128_S800000x1_S800000x128_1_0_0_1_wf
def scatter_S16384_S800000x1_S800000_n_0_0_1 : ScatterDims S16384 S800000x1 S800000 where
  updateWindowDims := []
  insertedWindowDims := [0]
  scatterDimsToOperandDims := [0]
  indexVectorDim := 1
  wf := scatter_S16384_S800000x1_S800000_n_0_0_1_wf

abbrev win0_0 : Pipeline.Window sig grid0 :=
  Pipeline.Window.ofSpec (Memref.whole main_arg1) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v22) S4000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S750000x128 : Shape := ⟨2, ![750000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S1x128 : Shape := ⟨2, ![1, 128]⟩
abbrev S16384x128 : Shape := ⟨2, ![16384, 128]⟩
abbrev S16384 : Shape := ⟨1, ![16384]⟩
abbrev S16384x1 : Shape := ⟨2, ![16384, 1]⟩

abbrev nBuf : Space → Nat
  | .hbm => 78
  | .vmem => 0
  | .smem => 0
  | _ => 0

abbrev bufTy : (tb : Table) → Fin (tcTables nBuf tb) → BufTy
  | .hbm, ⟨0, _⟩ => ⟨S750000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S800000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S128x128, .f32⟩
  | .hbm, ⟨32, _⟩ => ⟨S800000x128, .f32⟩
  | .hbm, ⟨33, _⟩ => ⟨S1x128, .f32⟩
  | .hbm, ⟨34, _⟩ => ⟨S800000x128, .f32⟩
  | .hbm, ⟨35, _⟩ => ⟨S800000x128, .f32⟩
  | .hbm, ⟨36, _⟩ => ⟨S128x128, .f32⟩
  | .hbm, ⟨37, _⟩ => ⟨S800000x128, .f32⟩
  | .hbm, ⟨38, _⟩ => ⟨S800000x128, .f32⟩
  | .hbm, ⟨39, _⟩ => ⟨S1x128, .f32⟩
  | .hbm, ⟨40, _⟩ => ⟨S800000x128, .f32⟩
  | .hbm, ⟨41, _⟩ => ⟨S800000x128, .f32⟩
  | .hbm, ⟨42, _⟩ => ⟨S128x128, .f32⟩
  | .hbm, ⟨43, _⟩ => ⟨S800000x128, .f32⟩
  | .hbm, ⟨44, _⟩ => ⟨S800000x128, .f32⟩
  | .hbm, ⟨45, _⟩ => ⟨S1x128, .f32⟩
  | .hbm, ⟨46, _⟩ => ⟨S800000x128, .f32⟩
  | .hbm, ⟨47, _⟩ => ⟨S800000x128, .f32⟩
  | .hbm, ⟨48, _⟩ => ⟨S800000x128, .f32⟩
  | .hbm, ⟨49, _⟩ => ⟨S800000x128, .f32⟩
  | .hbm, ⟨50, _⟩ => ⟨S_, .f32⟩
  | .hbm, ⟨51, _⟩ => ⟨S800000x128, .f32⟩
  | .hbm, ⟨52, _⟩ => ⟨S800000x128, .f32⟩
  | .hbm, ⟨53, _⟩ => ⟨S_, .f32⟩
  | .hbm, ⟨54, _⟩ => ⟨S800000x128, .f32⟩
  | .hbm, ⟨55, _⟩ => ⟨S800000x128, .f32⟩
  | .hbm, ⟨56, _⟩ => ⟨S128x128, .f32⟩
  | .hbm, ⟨57, _⟩ => ⟨S800000x128, .f32⟩
  | .hbm, ⟨58, _⟩ => ⟨S1x128, .f32⟩
  | .hbm, ⟨59, _⟩ => ⟨S800000x128, .f32⟩
  | .hbm, ⟨60, _⟩ => ⟨S800000x128, .f32⟩
  | .hbm, ⟨61, _⟩ => ⟨S800000x128, .f32⟩
  | .hbm, ⟨62, _⟩ => ⟨S_, .f32⟩
  | .hbm, ⟨63, _⟩ => ⟨S16384x128, .f32⟩
  | .hbm, ⟨64, _⟩ => ⟨S800000x1, .i32⟩
  | .hbm, ⟨65, _⟩ => ⟨S16384x128, .f32⟩
  | .hbm, ⟨66, _⟩ => ⟨S_, .f32⟩
  | .hbm, ⟨67, _⟩ => ⟨S800000, .f32⟩
  | .hbm, ⟨68, _⟩ => ⟨S_, .f32⟩
  | .hbm, ⟨69, _⟩ => ⟨S16384, .f32⟩
  | .hbm, ⟨70, _⟩ => ⟨S800000x1, .i32⟩
  | .hbm, ⟨71, _⟩ => ⟨S16384, .f32⟩
  | .hbm, ⟨72, _⟩ => ⟨S_, .f32⟩
  | .hbm, ⟨73, _⟩ => ⟨S16384, .f32⟩
  | .hbm, ⟨74, _⟩ => ⟨S16384, .f32⟩
  | .hbm, ⟨75, _⟩ => ⟨S16384x1, .f32⟩
  | .hbm, ⟨76, _⟩ => ⟨S16384x128, .f32⟩
  | .hbm, ⟨77, _⟩ => ⟨S16384x128, .f32⟩
  | _, _ => ⟨S750000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  transposes_S128x128_S128x128_1_0 : S128x128.Transposes [1, 0] S128x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S16384x128 : S_.BroadcastsInDim S16384x128 (![] : Fin 0 → Fin S16384x128.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x128_0_1 : S16384x1.BroadcastsInDim S16384x128 (![0, 1] : Fin 2 → Fin S16384x128.rank)
  gather_S750000x128_S800000x1_S800000x128_1_0_n_n_0_1_1128_wf : GatherDims.WF S750000x128 S800000x1 S800000x128 [1] [0] [] [0] [] 1 ![1, 128]
  dot_S800000x128_S128x128_S800000x128_1_0_0_1_n_n_wf : DotDims.WF S800000x128 S128x128 S800000x128 [1] [0] [0] [1] [] []
  scatter_S16384x128_S800000x1_S800000x128_1_0_0_1_wf : ScatterDims.WF S16384x128 S800000x1 S800000x128 [1] [0] [0] 1
  scatter_S16384_S800000x1_S800000_n_0_0_1_wf : ScatterDims.WF S16384 S800000x1 S800000 [] [0] [0] 1

variable [Facts₀]

def gather_S750000x128_S800000x1_S800000x128_1_0_n_n_0_1_1128 : GatherDims S750000x128 S800000x1 S800000x128 where
  offsetDims := [1]
  collapsedSliceDims := [0]
  operandBatchingDims := []
  startIndicesBatchingDims := []
  startIndexMap := [0]
  indexVectorDim := 1
  sliceSizes := ![1, 128]
  wf := gather_S750000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S16384x128_S800000x1_S800000x128_1_0_0_1 : ScatterDims S16384x128 S800000x1 S800000x128 where
  updateWindowDims := [1]
  insertedWindowDims := [0]
  scatterDimsToOperandDims := [0]
  indexVectorDim := 1
  wf := scatter_S16384x128_S800000x1_S800000x128_1_0_0_1_wf
def scatter_S16384_S800000x1_S800000_n_0_0_1 : ScatterDims S16384 S800000x1 S800000 where
  updateWindowDims := []
  insertedWindowDims := [0]
  scatterDimsToOperandDims := [0]
  indexVectorDim := 1
  wf := scatter_S16384_S800000x1_S800000_n_0_0_1_wf

class Facts : Prop extends Facts₀ where

variable [Facts]
-- ==== Proof.GateLaw.lean ====
/-
  The per-entry value both programs compute, and the scalar law that joins their two spellings of it, on the
  extended reals.

  For bond `r` and output feature `c` write `e`, `xi`, `xj` for the bond's feature row and its two endpoint atoms'
  rows (each indexed by the 128 input features), `wu`, `wv`, `ww`, `wa` for column `c` of the four transposed weight
  matrices, and `bu`, `bv`, `bw`, `ba` for entry `c` of the four biases. Both programs compute

      logistic((e·wu + bu) + (xi·wv + bv) + (xj·ww + bw)) · (e·wa + ba),

  each dot product a sum over the 128 input features.

  The kernel adds the three biased projections pairwise, `(a + bu) + (b + bv) + (c + bw)`; the reference adds the
  six terms left to right, `((((a + bu) + b) + bv) + c) + bw`. Addition on the extended reals is associative (no
  finiteness is needed: `⊥ + ⊤ = ⊥` is absorbed the same way in either grouping), so the two totals are equal.
  The kernel's logistic is one operation, `logistic x = 1 / (1 + e^(-x))` by definition; the reference spells
  that quotient out with the literal `1.0`. So the two gates are one extended real.
-/
import Idealize.ShloMosaic.PureOps.Ideal
import Idealize.ShloMosaic.PureOps.Ideal.Laws

open scoped BigOperators

noncomputable section

namespace Cert.EdgeGate

open Idealize.ShloMosaic

/-- The six-term total regrouped: pairwise (kernel) against left to right (reference). -/
theorem total_assoc (a bu b bv c bw : EReal) :
    (a + bu) + (b + bv) + (c + bw) = ((((a + bu) + b) + bv) + c) + bw := by
  simp only [add_assoc]

/-- The gate: the logistic of the pairwise total is the spelled-out quotient at the left-to-right total. -/
theorem gate_eq (a bu b bv c bw : EReal) :
    Ideal.logistic ((a + bu) + (b + bv) + (c + bw))
      = Ideal.div 1 (1 + Ideal.exp (-(((((a + bu) + b) + bv) + c) + bw))) := by
  rw [total_assoc]
  rfl

/-- The f32 word of `1.0` denotes the extended real `1`. -/
theorem one_word : Ideal.ofBits .f32 0x3F800000#32 = 1 := by
  simp [Ideal.ofBits, Ideal.ieee, -EReal.coe_mul]; norm_num

/-- The gated edge value at one (bond, feature) entry, from the bond's three feature rows, the four weight columns
    and the four bias entries: the kernel's grouping. -/
def edgeVal (e xi xj wu wv ww wa : Fin 128 → EReal) (bu bv bw ba : EReal) : EReal :=
  Ideal.logistic (((∑ k : Fin 128, e k * wu k) + bu) + ((∑ k : Fin 128, xi k * wv k) + bv)
      + ((∑ k : Fin 128, xj k * ww k) + bw))
    * ((∑ k : Fin 128, e k * wa k) + ba)

/-- The same entry as the reference spells it: the six terms added left to right, the logistic as the quotient
    `1.0 / (1.0 + exp (-total))` with the literal word for `1.0`. -/
theorem edgeVal_eq_spelled (e xi xj wu wv ww wa : Fin 128 → EReal) (bu bv bw ba : EReal) :
    Ideal.div (Ideal.ofBits .f32 0x3F800000#32)
        (Ideal.ofBits .f32 0x3F800000#32
          + Ideal.exp (-((((((∑ k : Fin 128, e k * wu k) + bu) + (∑ k : Fin 128, xi k * wv k)) + bv)
              + (∑ k : Fin 128, xj k * ww k)) + bw)))
      * ((∑ k : Fin 128, e k * wa k) + ba)
    = edgeVal e xi xj wu wv ww wa bu bv bw ba := by
  unfold edgeVal
  rw [gate_eq, one_word]

end Cert.EdgeGate

end
-- ==== Proof.EdgeBlock.lean ====
/-
  The kernel body's stored block, entry by entry.

  At one grid point the body holds a block of 4000 bonds: their feature rows `x0`, their two endpoint atoms' rows
  `x1`, `x2`, the four transposed weight matrices `x5` (U), `x7` (V), `x9` (W), `x3` (A) and the four biases `x6`,
  `x8`, `x10`, `x4`. Each matrix product accumulates into zero, so at entry (p, q) it is the sum over the 128
  input features k of (row p, feature k) times (feature k, column q); the narrowing of the operands to bf16 is
  the identity on extended reals. Each bias is viewed as a 1 × 128 row and repeated down the 4000 rows, so at
  (p, q) it is the bias's entry q. Hence the stored value at (p, q) is the gated edge value of row p of the three
  feature blocks, column q of the four weight matrices and entry q of the four biases.
-/
import proofs.«109004_j22239340658703_1_alg».proof.Proof.Gen.KernelIdeal.Frame
import proofs.«109004_j22239340658703_1_alg».proof.Proof.GateLaw
import Idealize.ShloMosaic.Lib.ValueIdx
import Idealize.ShloMosaic.Lib.Pipeline.Value
import Idealize.ShloMosaic.PureOps.Ideal.Laws

set_option maxRecDepth 16384

open scoped BigOperators

noncomputable section

namespace Cert.KernelIdeal.EdgeBlock

open Cert.KernelIdeal Cert.KernelIdeal.Gen Idealize.ShloMosaic Idealize.ShloMosaic.ValueIdx Cert.EdgeGate

/-! ## The product's operand indices -/

/-- The left operand is read in the output's row … -/
theorem lhs_ax0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … at the contracted feature; -/
theorem lhs_ax1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- the right operand at the contracted feature … -/
theorem rhs_ax0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … in the output's column. -/
theorem rhs_ax1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block-by-matrix product into a zero accumulator, at entry (p, q): the sum over the input features. -/
theorem matmul_at (x : FVec Ideal S4000x128 .bf16) (w : FVec Ideal S128x128 .bf16) (p : Fin 4000) (q : Fin 128) :
    matmul dot_S4000x128_S128x128_S4000x128_1_0_0_1_n_n none x w (constant S4000x128 .f32 0x00000000#32) (ix2 p q)
      = ∑ k : Fin 128, x (ix2 p k) * w (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_ax0 _ _).trans hk
    | ⟨1, _⟩ => exact rhs_ax1 _ _)
  rw [el, er]

/-! ## A bias repeated down the rows -/

/-- A bias vector viewed as one row and repeated down the block's rows reads its entry q in column q. -/
theorem bias_at (b : FVec Ideal S128 .f32) (p : Fin 4000) (q : Fin 128) :
    (broadcastTo S4000x128 (shapeCast S1x128 b shapeCasts_S128_S1x128 : FVec Ideal S1x128 .f32) broadcasts_S1x128_S4000x128
      : FVec Ideal S4000x128 .f32) (ix2 p q) = b (ix1 q) := by
  rw [broadcastTo_apply _ broadcasts_S1x128_S4000x128 (ix2 p q) (ix2 (⟨0, Nat.one_pos⟩ : Fin 1) q) (fun a => by
    match a with
    | ⟨0, _⟩ => rfl
    | ⟨1, _⟩ => rfl)]
  rw [shapeCast_addUnit_apply ![128] b shapeCasts_S128_S1x128 (ix2 (⟨0, Nat.one_pos⟩ : Fin 1) q)]
  exact congrArg b (funext fun a => by match a with | ⟨0, _⟩ => rfl)

/-- The logistic of a vector, at an entry. -/
theorem logistic_at {s : Shape} (v : FVec Ideal s .f32) (i : s.Idx) : logistic v i = Ideal.logistic (v i) := rfl

/-! ## The stored block -/

theorem hz2 : (![0, 0] : Fin 2 → Nat) = fun _ => 0 := funext fun a => by fin_cases a <;> rfl
theorem hz1 : (![0] : Fin 1 → Nat) = fun _ => 0 := funext fun a => by fin_cases a <;> rfl

/-- What the body stores, at entry (p, q) of the block. -/
theorem body_at (x0 x1 x2 : Vec Ideal S4000x128 .f32) (x3 : Vec Ideal S128x128 .bf16) (x4 : Vec Ideal S128 .f32)
    (x5 : Vec Ideal S128x128 .bf16) (x6 : Vec Ideal S128 .f32) (x7 : Vec Ideal S128x128 .bf16) (x8 : Vec Ideal S128 .f32)
    (x9 : Vec Ideal S128x128 .bf16) (x10 : Vec Ideal S128 .f32) (p : Fin 4000) (q : Fin 128) :
    out0_11 x0 x1 x2 x3 x4 x5 x6 x7 x8 x9 x10 (ix2 p q)
      = edgeVal (fun k => x0 (ix2 p k)) (fun k => x1 (ix2 p k)) (fun k => x2 (ix2 p k))
          (fun k => x5 (ix2 k q)) (fun k => x7 (ix2 k q)) (fun k => x9 (ix2 k q)) (fun k => x3 (ix2 k q))
          (x6 (ix1 q)) (x8 (ix1 q)) (x10 (ix1 q)) (x4 (ix1 q)) := by
  unfold out0_11
  rw [View.canon_unit_zero hz2]
  simp only [View.ld_unit_zero (S := S4000x128) hz2, View.ld_unit_zero (S := S128x128) hz2, View.ld_unit_zero (S := S128) hz1]
  unfold k0_pay1 k0_pay3 k0_pay4 k0_pay5 k0_pay2 edgeVal
  dsimp only
  simp only [shapeCast_self]
  simp only [mulf_apply, addf_apply, logistic_at, matmul_at, bias_at, truncf_apply]

end Cert.KernelIdeal.EdgeBlock

end
-- ==== Proof.EdgeSpec.lean ====
/-
  The gated edge values of all 800000 bonds as ONE function of whole arrays: entry (r, c) is the gated edge value
  (`edgeVal`) of row r of the bond features and of the two endpoint-feature arrays, column c of the four transposed
  weight matrices and entry c of the four biases.
-/
import proofs.«109004_j22239340658703_1_alg».proof.Proof.GateLaw
import Idealize.ShloMosaic.Lib.ValueIdx

noncomputable section

namespace Cert.EdgeGate

open Idealize.ShloMosaic Idealize.ShloMosaic.ValueIdx

/-- Bonds × features. -/
abbrev Rows : Shape := ⟨2, ![800000, 128]⟩
/-- Features × features. -/
abbrev Sq : Shape := ⟨2, ![128, 128]⟩
/-- Features. -/
abbrev Feat : Shape := ⟨1, ![128]⟩

/-- All bonds' gated edge values, from the bond features, the two gathered endpoint features, the four transposed
    weight matrices (input feature × output feature) and the four biases. -/
def edgeArr (bond xi xj : Rows.Idx → EReal) (wu wv ww wa : Sq.Idx → EReal) (bu bv bw ba : Feat.Idx → EReal) :
    Rows.Idx → EReal :=
  fun i => edgeVal (fun k => bond (ix2 (i 0) k)) (fun k => xi (ix2 (i 0) k)) (fun k => xj (ix2 (i 0) k))
    (fun k => wu (ix2 k (i 1))) (fun k => wv (ix2 k (i 1))) (fun k => ww (ix2 k (i 1))) (fun k => wa (ix2 k (i 1)))
    (bu (ix1 (i 1))) (bv (ix1 (i 1))) (bw (ix1 (i 1))) (ba (ix1 (i 1)))

end Cert.EdgeGate

end
-- ==== Proof.EdgeArray.lean ====
/-
  From the kernel's blocks to its whole output array.

  The grid has 200 points; point t works on bonds 4000·t … 4000·t + 3999. The three per-bond inputs and the output
  are cut into blocks of 4000 rows and sit at block t; the four weight matrices and four biases are single blocks
  read whole at every point. So row p of a per-bond block at point t is row 4000·t + p of its array, and the
  weight and bias blocks are their arrays. By the entry-by-entry reading of the body, what point t writes back is
  therefore block t of the all-bonds function `edgeArr` of the arrays as the region finds them. Every row r lies
  in the block of point r / 4000, which is written back, so after the run the output array is `edgeArr` of those
  arrays.
-/
import proofs.«109004_j22239340658703_1_alg».proof.Proof.EdgeBlock
import proofs.«109004_j22239340658703_1_alg».proof.Proof.EdgeSpec

set_option maxRecDepth 16384

noncomputable section

namespace Cert.KernelIdeal.EdgeArray

open Cert.KernelIdeal Cert.KernelIdeal.Gen Cert.KernelIdeal.EdgeBlock Idealize.ShloMosaic Idealize.ShloMosaic.ValueIdx Cert.EdgeGate
open Idealize.SL Idealize.SL.Sem
open Idealize.ShloMosaic.Pipeline (Dat Cfg Window)

variable (m : (ℓ : Loc nD τ sig) → Buf (Elt Ideal) ℓ)

/-- The printed index maps, decided over the 200 grid points: the per-bond windows (0, 1, 2 and the output 11) sit at
    block (t, 0); the weight windows (3, 5, 7, 9) and bias windows (4, 6, 8, 10) at block 0 throughout. -/
theorem idx_facts : ∀ t : Fin cfg0.N,
    win0_0.index t (0 : Fin 2) = win0_11.index t (0 : Fin 2) ∧ win0_0.index t (1 : Fin 2) = 0
    ∧ win0_1.index t (0 : Fin 2) = win0_11.index t (0 : Fin 2) ∧ win0_1.index t (1 : Fin 2) = 0
    ∧ win0_2.index t (0 : Fin 2) = win0_11.index t (0 : Fin 2) ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (1 : Fin 2) = 0 :=
  (by decide +kernel : ∀ t : Fin grid0.N, _)

/-- Every block row 0 … 199 of the output is some point's. -/
theorem idx_onto : ∀ q0 : Fin 200, ∃ t : Fin cfg0.N, win0_11.index t = ![q0.val, 0] :=
  (by decide +kernel : ∀ q0 : Fin 200, ∃ t : Fin grid0.N, win0_11.index t = ![q0.val, 0])

/-! ## Each input block read where the output block's entry sits -/

/-- Row p of the bond-feature block at point t is the bond-feature array's row under the output entry. -/
theorem bond_row (c : Dev nD) (t : Fin cfg0.N) (p : Fin 4000) (q k : Fin 128) :
    iblk m c 0 t (ix2 p k) = V m c main_arg1 (ix2 ((((cfg0.win 11).blk t).view.emb (ix2 p q)) 0) k) := by
  obtain ⟨e0, e1, e2, e3, e4, e5, e6, e7, e8, e9, e10, e11, e12, e13, e14, e15, e16, e17, e18⟩ := idx_facts t
  show V m c main_arg1 (((cfg0.win 0).blk t).view.emb (ix2 p k)) = _
  refine congrArg (V m c main_arg1) (funext fun a => Fin.ext ?_)
  match a with
  | ⟨0, _⟩ => show win0_0.index t (0 : Fin 2) * 4000 + 1 * p.val = win0_11.index t (0 : Fin 2) * 4000 + 1 * p.val; omega
  | ⟨1, _⟩ => show win0_0.index t (1 : Fin 2) * 128 + 1 * k.val = k.val; omega

/-- The same for the first endpoint's gathered features. -/
theorem xi_row (c : Dev nD) (t : Fin cfg0.N) (p : Fin 4000) (q k : Fin 128) :
    iblk m c 1 t (ix2 p k) = V m c main_v6 (ix2 ((((cfg0.win 11).blk t).view.emb (ix2 p q)) 0) k) := by
  obtain ⟨e0, e1, e2, e3, e4, e5, e6, e7, e8, e9, e10, e11, e12, e13, e14, e15, e16, e17, e18⟩ := idx_facts t
  show V m c main_v6 (((cfg0.win 1).blk t).view.emb (ix2 p k)) = _
  refine congrArg (V m c main_v6) (funext fun a => Fin.ext ?_)
  match a with
  | ⟨0, _⟩ => show win0_1.index t (0 : Fin 2) * 4000 + 1 * p.val = win0_11.index t (0 : Fin 2) * 4000 + 1 * p.val; omega
  | ⟨1, _⟩ => show win0_1.index t (1 : Fin 2) * 128 + 1 * k.val = k.val; omega

/-- The same for the second endpoint's gathered features. -/
theorem xj_row (c : Dev nD) (t : Fin cfg0.N) (p : Fin 4000) (q k : Fin 128) :
    iblk m c 2 t (ix2 p k) = V m c main_v13 (ix2 ((((cfg0.win 11).blk t).view.emb (ix2 p q)) 0) k) := by
  obtain ⟨e0, e1, e2, e3, e4, e5, e6, e7, e8, e9, e10, e11, e12, e13, e14, e15, e16, e17, e18⟩ := idx_facts t
  show V m c main_v13 (((cfg0.win 2).blk t).view.emb (ix2 p k)) = _
  refine congrArg (V m c main_v13) (funext fun a => Fin.ext ?_)
  match a with
  | ⟨0, _⟩ => show win0_2.index t (0 : Fin 2) * 4000 + 1 * p.val = win0_11.index t (0 : Fin 2) * 4000 + 1 * p.val; omega
  | ⟨1, _⟩ => show win0_2.index t (1 : Fin 2) * 128 + 1 * k.val = k.val; omega

/-- Column q of the A-weights block is the array's column under the output entry. -/
theorem wa_col (c : Dev nD) (t : Fin cfg0.N) (p : Fin 4000) (q k : Fin 128) :
    iblk m c 3 t (ix2 k q) = V m c main_v15 (ix2 k ((((cfg0.win 11).blk t).view.emb (ix2 p q)) 1)) := by
  obtain ⟨e0, e1, e2, e3, e4, e5, e6, e7, e8, e9, e10, e11, e12, e13, e14, e15, e16, e17, e18⟩ := idx_facts t
  show V m c main_v15 (((cfg0.win 3).blk t).view.emb (ix2 k q)) = _
  refine congrArg (V m c main_v15) (funext fun a => Fin.ext ?_)
  match a with
  | ⟨0, _⟩ => show win0_3.index t (0 : Fin 2) * 128 + 1 * k.val = k.val; omega
  | ⟨1, _⟩ => show win0_3.index t (1 : Fin 2) * 128 + 1 * q.val = win0_11.index t (1 : Fin 2) * 128 + 1 * q.val; omega

/-- The same for the U-weights. -/
theorem wu_col (c : Dev nD) (t : Fin cfg0.N) (p : Fin 4000) (q k : Fin 128) :
    iblk m c 5 t (ix2 k q) = V m c main_v17 (ix2 k ((((cfg0.win 11).blk t).view.emb (ix2 p q)) 1)) := by
  obtain ⟨e0, e1, e2, e3, e4, e5, e6, e7, e8, e9, e10, e11, e12, e13, e14, e15, e16, e17, e18⟩ := idx_facts t
  show V m c main_v17 (((cfg0.win 5).blk t).view.emb (ix2 k q)) = _
  refine congrArg (V m c main_v17) (funext fun a => Fin.ext ?_)
  match a with
  | ⟨0, _⟩ => show win0_5.index t (0 : Fin 2) * 128 + 1 * k.val = k.val; omega
  | ⟨1, _⟩ => show win0_5.index t (1 : Fin 2) * 128 + 1 * q.val = win0_11.index t (1 : Fin 2) * 128 + 1 * q.val; omega

/-- The same for the V-weights. -/
theorem wv_col (c : Dev nD) (t : Fin cfg0.N) (p : Fin 4000) (q k : Fin 128) :
    iblk m c 7 t (ix2 k q) = V m c main_v19 (ix2 k ((((cfg0.win 11).blk t).view.emb (ix2 p q)) 1)) := by
  obtain ⟨e0, e1, e2, e3, e4, e5, e6, e7, e8, e9, e10, e11, e12, e13, e14, e15, e16, e17, e18⟩ := idx_facts t
  show V m c main_v19 (((cfg0.win 7).blk t).view.emb (ix2 k q)) = _
  refine congrArg (V m c main_v19) (funext fun a => Fin.ext ?_)
  match a with
  | ⟨0, _⟩ => show win0_7.index t (0 : Fin 2) * 128 + 1 * k.val = k.val; omega
  | ⟨1, _⟩ => show win0_7.index t (1 : Fin 2) * 128 + 1 * q.val = win0_11.index t (1 : Fin 2) * 128 + 1 * q.val; omega

/-- The same for the W-weights. -/
theorem ww_col (c : Dev nD) (t : Fin cfg0.N) (p : Fin 4000) (q k : Fin 128) :
    iblk m c 9 t (ix2 k q) = V m c main_v21 (ix2 k ((((cfg0.win 11).blk t).view.emb (ix2 p q)) 1)) := by
  obtain ⟨e0, e1, e2, e3, e4, e5, e6, e7, e8, e9, e10, e11, e12, e13, e14, e15, e16, e17, e18⟩ := idx_facts t
  show V m c main_v21 (((cfg0.win 9).blk t).view.emb (ix2 k q)) = _
  refine congrArg (V m c main_v21) (funext fun a => Fin.ext ?_)
  match a with
  | ⟨0, _⟩ => show win0_9.index t (0 : Fin 2) * 128 + 1 * k.val = k.val; omega
  | ⟨1, _⟩ => show win0_9.index t (1 : Fin 2) * 128 + 1 * q.val = win0_11.index t (1 : Fin 2) * 128 + 1 * q.val; omega

/-- Entry q of the A-bias block is the array's entry under the output entry's column. -/
theorem ba_at (c : Dev nD) (t : Fin cfg0.N) (p : Fin 4000) (q : Fin 128) :
    iblk m c 4 t (ix1 q) = V m c main_arg6 (ix1 ((((cfg0.win 11).blk t).view.emb (ix2 p q)) 1)) := by
  obtain ⟨e0, e1, e2, e3, e4, e5, e6, e7, e8, e9, e10, e11, e12, e13, e14, e15, e16, e17, e18⟩ := idx_facts t
  show V m c main_arg6 (((cfg0.win 4).blk t).view.emb (ix1 q)) = _
  refine congrArg (V m c main_arg6) (funext fun a => Fin.ext ?_)
  match a with
  | ⟨0, _⟩ => show win0_4.index t (0 : Fin 1) * 128 + 1 * q.val = win0_11.index t (1 : Fin 2) * 128 + 1 * q.val; omega

/-- The same for the U-bias. -/
theorem bu_at (c : Dev nD) (t : Fin cfg0.N) (p : Fin 4000) (q : Fin 128) :
    iblk m c 6 t (ix1 q) = V m c main_arg8 (ix1 ((((cfg0.win 11).blk t).view.emb (ix2 p q)) 1)) := by
  obtain ⟨e0, e1, e2, e3, e4, e5, e6, e7, e8, e9, e10, e11, e12, e13, e14, e15, e16, e17, e18⟩ := idx_facts t
  show V m c main_arg8 (((cfg0.win 6).blk t).view.emb (ix1 q)) = _
  refine congrArg (V m c main_arg8) (funext fun a => Fin.ext ?_)
  match a with
  | ⟨0, _⟩ => show win0_6.index t (0 : Fin 1) * 128 + 1 * q.val = win0_11.index t (1 : Fin 2) * 128 + 1 * q.val; omega

/-- The same for the V-bias. -/
theorem bv_at (c : Dev nD) (t : Fin cfg0.N) (p : Fin 4000) (q : Fin 128) :
    iblk m c 8 t (ix1 q) = V m c main_arg10 (ix1 ((((cfg0.win 11).blk t).view.emb (ix2 p q)) 1)) := by
  obtain ⟨e0, e1, e2, e3, e4, e5, e6, e7, e8, e9, e10, e11, e12, e13, e14, e15, e16, e17, e18⟩ := idx_facts t
  show V m c main_arg10 (((cfg0.win 8).blk t).view.emb (ix1 q)) = _
  refine congrArg (V m c main_arg10) (funext fun a => Fin.ext ?_)
  match a with
  | ⟨0, _⟩ => show win0_8.index t (0 : Fin 1) * 128 + 1 * q.val = win0_11.index t (1 : Fin 2) * 128 + 1 * q.val; omega

/-- The same for the W-bias. -/
theorem bw_at (c : Dev nD) (t : Fin cfg0.N) (p : Fin 4000) (q : Fin 128) :
    iblk m c 10 t (ix1 q) = V m c main_arg12 (ix1 ((((cfg0.win 11).blk t).view.emb (ix2 p q)) 1)) := by
  obtain ⟨e0, e1, e2, e3, e4, e5, e6, e7, e8, e9, e10, e11, e12, e13, e14, e15, e16, e17, e18⟩ := idx_facts t
  show V m c main_arg12 (((cfg0.win 10).blk t).view.emb (ix1 q)) = _
  refine congrArg (V m c main_arg12) (funext fun a => Fin.ext ?_)
  match a with
  | ⟨0, _⟩ => show win0_10.index t (0 : Fin 1) * 128 + 1 * q.val = win0_11.index t (1 : Fin 2) * 128 + 1 * q.val; omega

/-! ## What a point writes back -/

/-- The body's stored block at point t, entry by entry, is block t of `edgeArr` of the arrays as the region finds them. -/
theorem block_eq (c : Dev nD) (t : Fin cfg0.N) (j : S4000x128.Idx) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) j
      = edgeArr (V m c main_arg1) (V m c main_v6) (V m c main_v13) (V m c main_v17) (V m c main_v19) (V m c main_v21) (V m c main_v15) (V m c main_arg8) (V m c main_arg10) (V m c main_arg12) (V m c main_arg6) (((cfg0.win 11).blk t).view.emb j) := by
  obtain ⟨p, q, rfl⟩ : ∃ (p : Fin 4000) (q : Fin 128), j = ix2 p q := ⟨j 0, j 1, eq_ix2 j⟩
  refine (body_at (iblk m c 0 t) (iblk m c 1 t) (iblk m c 2 t) (iblk m c 3 t) (iblk m c 4 t) (iblk m c 5 t) (iblk m c 6 t) (iblk m c 7 t) (iblk m c 8 t) (iblk m c 9 t) (iblk m c 10 t) p q).trans ?_
  unfold edgeArr
  simp only [bond_row m c t p q, xi_row m c t p q, xj_row m c t p q, wa_col m c t p q, wu_col m c t p q, wv_col m c t p q,
    ww_col m c t p q, ba_at m c t p q, bu_at m c t p q, bv_at m c t p q, bw_at m c t p q]

/-- What point t writes back is block t of `edgeArr`. -/
theorem flushed_eq (c : Dev nD) (t : Fin cfg0.N) :
    (dats m 0 c).flushed 11 t = ((cfg0.win 11).blk t).view.read (Elt Ideal) (edgeArr (V m c main_arg1) (V m c main_v6) (V m c main_v13) (V m c main_v17) (V m c main_v19) (V m c main_v21) (V m c main_v15) (V m c main_arg8) (V m c main_arg10) (V m c main_arg12) (V m c main_arg6)) := by
  show (cfg0.win 11).cut (grid0.coords t) ((dats m 0 c).after 11 t) = _
  rw [after0_11]
  funext j
  exact block_eq m c t j

/-! ## The blocks tile the array -/

/-- An index of the output array is in point t's block iff each coordinate is in the block's range on its axis. -/
theorem mem_blk (t : Fin cfg0.N) (i : S800000x128.Idx) :
    i ∈ ((cfg0.win 11).blk t).view.set ↔ ∀ a : Fin 2, win0_11.index t a * S4000x128.size a ≤ (i a).val ∧ (i a).val < win0_11.index t a * S4000x128.size a + S4000x128.size a := by
  show i ∈ ((View.whole main_v22).slice (win0_11.rect t)).set ↔ _
  rw [View.set_slice_whole, Rect.mem_set_unit]
  exact Iff.rfl

/-- Row r is in the block of point r / 4000, and that point writes its block back. -/
theorem cover (i : S800000x128.Idx) :
    ∃ t : Fin cfg0.N, (cfg0.win 11).flush t = true ∧ i ∈ ((cfg0.win 11).blk t).view.set := by
  have hi0 : (i 0).val < 800000 := (i 0).isLt
  have hi1 : (i 1).val < 128 := (i 1).isLt
  obtain ⟨t, ht⟩ := idx_onto ⟨(i 0).val / 4000, by omega⟩
  have q0 : win0_11.index t (0 : Fin 2) = (i 0).val / 4000 := congrFun ht 0
  have q1 : win0_11.index t (1 : Fin 2) = 0 := congrFun ht 1
  refine ⟨t, flush0_11 t, ?_⟩
  rw [mem_blk]
  intro a
  match a with
  | ⟨0, _⟩ => show win0_11.index t (0 : Fin 2) * 4000 ≤ (i 0).val ∧ (i 0).val < win0_11.index t (0 : Fin 2) * 4000 + 4000; omega
  | ⟨1, _⟩ => show win0_11.index t (1 : Fin 2) * 128 ≤ (i 1).val ∧ (i 1).val < win0_11.index t (1 : Fin 2) * 128 + 128; omega

/-- The output array after the run: all bonds' gated edge values, of the arrays as the region finds them. -/
theorem final (c : Dev nD) : (dats m 0 c).arrAt 11 cfg0.N = edgeArr (V m c main_arg1) (V m c main_v6) (V m c main_v13) (V m c main_v17) (V m c main_v19) (V m c main_v21) (V m c main_v15) (V m c main_arg8) (V m c main_arg10) (V m c main_arg12) (V m c main_arg6) :=
  (dats m 0 c).arrAt_eq_of_cover 11 _ (fun t _ => flushed_eq m c t) cover

end Cert.KernelIdeal.EdgeArray

end
-- ==== Proof.RefVals.lean ====
/-
  The reference's per-bond values, read off its run one operation at a time.

  The reference forms each projection as a product of an 800000 × 128 array with a transposed 128 × 128 weight
  matrix: at entry i = (r, c) a sum over the input features k of (row r, feature k) times (feature k, column c).
  Each bias is laid out as a 1 × 128 row and repeated down the rows: at (r, c) its entry c. The six terms are
  added left to right, negated, exponentiated, `1.0` is added, `1.0` is divided by the result, and the quotient
  multiplies the biased A-projection. Entry by entry that is the spelled-out form of the gated edge value, so
  the stage is `edgeArr` of the bond features, the two gathered endpoint features, the four transposed weights
  and the four biases.
-/
import proofs.«109004_j22239340658703_1_alg».proof.Proof.Gen.ReferenceIdeal.Run
import proofs.«109004_j22239340658703_1_alg».proof.Proof.Gen.ReferenceIdeal.Read
import proofs.«109004_j22239340658703_1_alg».proof.Proof.EdgeSpec

open scoped BigOperators

noncomputable section

namespace Cert.ReferenceIdeal.RefVals

open Cert.ReferenceIdeal Cert.ReferenceIdeal.Gen Cert.ReferenceIdeal.Read Idealize.ShloMosaic Idealize.ShloMosaic.ValueIdx Cert.EdgeGate

/-! ## The operand indices of the four products, as (row, feature) and (feature, column) -/

theorem lidx15 (i : S800000x128.Idx) (k : Fin 128) : lidx_main_v15 i k = ix2 (i 0) k :=
  funext fun a => by match a with | ⟨0, _⟩ => rfl | ⟨1, _⟩ => rfl
theorem ridx15 (i : S800000x128.Idx) (k : Fin 128) : ridx_main_v15 i k = ix2 k (i 1) :=
  funext fun a => by match a with | ⟨0, _⟩ => rfl | ⟨1, _⟩ => rfl

theorem lidx20 (i : S800000x128.Idx) (k : Fin 128) : lidx_main_v20 i k = ix2 (i 0) k :=
  funext fun a => by match a with | ⟨0, _⟩ => rfl | ⟨1, _⟩ => rfl
theorem ridx20 (i : S800000x128.Idx) (k : Fin 128) : ridx_main_v20 i k = ix2 k (i 1) :=
  funext fun a => by match a with | ⟨0, _⟩ => rfl | ⟨1, _⟩ => rfl

theorem lidx26 (i : S800000x128.Idx) (k : Fin 128) : lidx_main_v26 i k = ix2 (i 0) k :=
  funext fun a => by match a with | ⟨0, _⟩ => rfl | ⟨1, _⟩ => rfl
theorem ridx26 (i : S800000x128.Idx) (k : Fin 128) : ridx_main_v26 i k = ix2 k (i 1) :=
  funext fun a => by match a with | ⟨0, _⟩ => rfl | ⟨1, _⟩ => rfl

theorem lidx38 (i : S800000x128.Idx) (k : Fin 128) : lidx_main_v38 i k = ix2 (i 0) k :=
  funext fun a => by match a with | ⟨0, _⟩ => rfl | ⟨1, _⟩ => rfl
theorem ridx38 (i : S800000x128.Idx) (k : Fin 128) : ridx_main_v38 i k = ix2 k (i 1) :=
  funext fun a => by match a with | ⟨0, _⟩ => rfl | ⟨1, _⟩ => rfl

/-- The U-projection at (r, c). -/
theorem v15_at (x1 : (⟨S800000x128, .f32⟩ : BufTy).Contents (Elt Ideal)) (x7 : (⟨S128x128, .f32⟩ : BufTy).Contents (Elt Ideal)) (i : S800000x128.Idx) :
    val_main_v15 (F := Ideal) x1 x7 i = ∑ k : Fin 128, x1 (ix2 (i 0) k) * (val_main_v14 (F := Ideal) x7) (ix2 k (i 1)) := by
  rw [val_main_v15_apply]
  exact Finset.sum_congr rfl fun k _ => by rw [lidx15 i k, ridx15 i k]; rfl
/-- The V-projection at (r, c). -/
theorem v20_at (x0 : (⟨S750000x128, .f32⟩ : BufTy).Contents (Elt Ideal)) (x2 : (⟨S800000, .i32⟩ : BufTy).Contents (Elt Ideal)) (x9 : (⟨S128x128, .f32⟩ : BufTy).Contents (Elt Ideal)) (i : S800000x128.Idx) :
    val_main_v20 (F := Ideal) x0 x2 x9 i = ∑ k : Fin 128, (val_main_v6 (F := Ideal) x0 x2) (ix2 (i 0) k) * (val_main_v19 (F := Ideal) x9) (ix2 k (i 1)) := by
  rw [val_main_v20_apply]
  exact Finset.sum_congr rfl fun k _ => by rw [lidx20 i k, ridx20 i k]; rfl
/-- The W-projection at (r, c). -/
theorem v26_at (x0 : (⟨S750000x128, .f32⟩ : BufTy).Contents (Elt Ideal)) (x3 : (⟨S800000, .i32⟩ : BufTy).Contents (Elt Ideal)) (x11 : (⟨S128x128, .f32⟩ : BufTy).Contents (Elt Ideal)) (i : S800000x128.Idx) :
    val_main_v26 (F := Ideal) x0 x3 x11 i = ∑ k : Fin 128, (val_main_v13 (F := Ideal) x0 x3) (ix2 (i 0) k) * (val_main_v25 (F := Ideal) x11) (ix2 k (i 1)) := by
  rw [val_main_v26_apply]
  exact Finset.sum_congr rfl fun k _ => by rw [lidx26 i k, ridx26 i k]; rfl
/-- The A-projection at (r, c). -/
theorem v38_at (x1 : (⟨S800000x128, .f32⟩ : BufTy).Contents (Elt Ideal)) (x5 : (⟨S128x128, .f32⟩ : BufTy).Contents (Elt Ideal)) (i : S800000x128.Idx) :
    val_main_v38 (F := Ideal) x1 x5 i = ∑ k : Fin 128, x1 (ix2 (i 0) k) * (val_main_v37 (F := Ideal) x5) (ix2 k (i 1)) := by
  rw [val_main_v38_apply]
  exact Finset.sum_congr rfl fun k _ => by rw [lidx38 i k, ridx38 i k]; rfl

/-! ## The four biases repeated down the rows -/

theorem v17_at (x8 : (⟨S128, .f32⟩ : BufTy).Contents (Elt Ideal)) (i : S800000x128.Idx) : val_main_v17 (F := Ideal) x8 i = x8 (ix1 (i 1)) := by
  rw [val_main_v17_apply, val_main_v16_apply]
  exact congrArg x8 (funext fun a => by match a with | ⟨0, _⟩ => rfl)
theorem v23_at (x10 : (⟨S128, .f32⟩ : BufTy).Contents (Elt Ideal)) (i : S800000x128.Idx) : val_main_v23 (F := Ideal) x10 i = x10 (ix1 (i 1)) := by
  rw [val_main_v23_apply, val_main_v22_apply]
  exact congrArg x10 (funext fun a => by match a with | ⟨0, _⟩ => rfl)
theorem v29_at (x12 : (⟨S128, .f32⟩ : BufTy).Contents (Elt Ideal)) (i : S800000x128.Idx) : val_main_v29 (F := Ideal) x12 i = x12 (ix1 (i 1)) := by
  rw [val_main_v29_apply, val_main_v28_apply]
  exact congrArg x12 (funext fun a => by match a with | ⟨0, _⟩ => rfl)
theorem v40_at (x6 : (⟨S128, .f32⟩ : BufTy).Contents (Elt Ideal)) (i : S800000x128.Idx) : val_main_v40 (F := Ideal) x6 i = x6 (ix1 (i 1)) := by
  rw [val_main_v40_apply, val_main_v39_apply]
  exact congrArg x6 (funext fun a => by match a with | ⟨0, _⟩ => rfl)

/-! ## The stage -/

/-- The reference's gated values of all bonds are `edgeArr` of its operands. -/
theorem vals_eq (x0 : (⟨S750000x128, .f32⟩ : BufTy).Contents (Elt Ideal)) (x1 : (⟨S800000x128, .f32⟩ : BufTy).Contents (Elt Ideal)) (x2 x3 : (⟨S800000, .i32⟩ : BufTy).Contents (Elt Ideal))
    (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal))
    (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) :
    val_main_v42 (F := Ideal) x0 x1 x2 x3 x5 x6 x7 x8 x9 x10 x11 x12
      = edgeArr x1 (val_main_v6 (F := Ideal) x0 x2) (val_main_v13 (F := Ideal) x0 x3)
          (val_main_v14 (F := Ideal) x7) (val_main_v19 (F := Ideal) x9) (val_main_v25 (F := Ideal) x11) (val_main_v37 (F := Ideal) x5)
          x8 x10 x12 x6 := by
  funext i
  rw [val_main_v42_apply, val_main_v36_apply, val_main_v41_apply, val_main_v35_apply, val_main_cst_3_apply,
    val_main_v34_apply, val_main_v33_apply, val_main_cst_apply, val_main_v32_apply, val_main_v31_apply,
    val_main_v30_apply, val_main_v27_apply, val_main_v24_apply, val_main_v21_apply, val_main_v18_apply,
    v15_at, v17_at, v20_at, v23_at, v26_at, v29_at, v38_at, v40_at]
  unfold edgeArr
  exact edgeVal_eq_spelled _ _ _ _ _ _ _ _ _ _ _

end Cert.ReferenceIdeal.RefVals

end
-- ==== Proof.EdgeResult.lean ====
/-
  The idealized kernel's run, with its result named by the reference's own stages.

  Before the region the kernel's host code gathers the two endpoint-feature arrays with the very operations the
  reference uses (negative indices wrapped by 750000, then a row gather), and transposes the four weight
  matrices; the narrowing of the transposed weights to bf16 is the identity on extended reals. So each array the
  region finds is the reference's stage of the same name of the launched arguments, and the region's output
  array, `edgeArr` of those arrays, is the reference's gated-values stage. After the region both programs
  scatter-add the gated values and a vector of ones by segment id and divide the sums by the counts clamped
  below by one: the same operations on the same operands, so the kernel's result is the reference's result
  stage of the launched arguments.
-/
import proofs.«109004_j22239340658703_1_alg».proof.Proof.EdgeArray
import proofs.«109004_j22239340658703_1_alg».proof.Proof.RefVals
import Idealize.ShloMosaic.Lib.StableHlo.Run

set_option maxRecDepth 16384

noncomputable section

namespace Cert.KernelIdeal.EdgeResult

open Cert.KernelIdeal Cert.KernelIdeal.Gen Cert.KernelIdeal.EdgeArray Idealize.ShloMosaic Idealize.ShloMosaic.ValueIdx Cert.EdgeGate
open Idealize.SL Idealize.SL.Sem Idealize.ShloMosaic.StableHlo Idealize.ShloMosaic.TcCoe

variable (m : (ℓ : Loc nD τ sig) → Buf (Elt Ideal) ℓ)

/-! ## The arrays the region finds are the reference's stages -/

/-- The first endpoint's features: the wrapped-index row gather of the atom features. -/
theorem xi_eq (c : Dev nD) : (V m c main_v6 : Rows.Idx → EReal) = Cert.ReferenceIdeal.Read.val_main_v6 (F := Ideal) (m ((c : Thread nD τ).loc main_arg0)) (m ((c : Thread nD τ).loc main_arg2)) := by
  show StableHlo.after hostOps0 (fun b => m (c, b)) (Proc.devRef .tc main_v6) = _
  after_results
  rfl
/-- The second endpoint's features likewise. -/
theorem xj_eq (c : Dev nD) : (V m c main_v13 : Rows.Idx → EReal) = Cert.ReferenceIdeal.Read.val_main_v13 (F := Ideal) (m ((c : Thread nD τ).loc main_arg0)) (m ((c : Thread nD τ).loc main_arg3)) := by
  show StableHlo.after hostOps0 (fun b => m (c, b)) (Proc.devRef .tc main_v13) = _
  after_results
  rfl
/-- The A-weights, transposed (their narrowing is the identity). -/
theorem wa_eq (c : Dev nD) : (V m c main_v15 : Sq.Idx → EReal) = Cert.ReferenceIdeal.Read.val_main_v37 (F := Ideal) (m ((c : Thread nD τ).loc main_arg5)) := by
  show StableHlo.after hostOps0 (fun b => m (c, b)) (Proc.devRef .tc main_v15) = _
  after_results
  rfl

/-- The U-weights, transposed. -/
theorem wu_eq (c : Dev nD) : (V m c main_v17 : Sq.Idx → EReal) = Cert.ReferenceIdeal.Read.val_main_v14 (F := Ideal) (m ((c : Thread nD τ).loc main_arg7)) := by
  show StableHlo.after hostOps0 (fun b => m (c, b)) (Proc.devRef .tc main_v17) = _
  after_results
  rfl

/-- The V-weights, transposed. -/
theorem wv_eq (c : Dev nD) : (V m c main_v19 : Sq.Idx → EReal) = Cert.ReferenceIdeal.Read.val_main_v19 (F := Ideal) (m ((c : Thread nD τ).loc main_arg9)) := by
  show StableHlo.after hostOps0 (fun b => m (c, b)) (Proc.devRef .tc main_v19) = _
  after_results
  rfl

/-- The W-weights, transposed. -/
theorem ww_eq (c : Dev nD) : (V m c main_v21 : Sq.Idx → EReal) = Cert.ReferenceIdeal.Read.val_main_v25 (F := Ideal) (m ((c : Thread nD τ).loc main_arg11)) := by
  show StableHlo.after hostOps0 (fun b => m (c, b)) (Proc.devRef .tc main_v21) = _
  after_results
  rfl

/-- The region's output array after the run is the reference's gated-values stage of the launched arguments. -/
theorem vals_bridge (c : Dev nD) :
    edgeArr (V m c main_arg1) (V m c main_v6) (V m c main_v13) (V m c main_v17) (V m c main_v19) (V m c main_v21) (V m c main_v15) (V m c main_arg8) (V m c main_arg10) (V m c main_arg12) (V m c main_arg6) = Cert.ReferenceIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [Cert.ReferenceIdeal.RefVals.vals_eq, xi_eq m c, xj_eq m c, wa_eq m c, wu_eq m c, wv_eq m c, ww_eq m c,
    V_main_arg1 m c, V_main_arg6 m c, V_main_arg8 m c, V_main_arg10 m c, V_main_arg12 m c]

/-! ## The lines after the region -/

/-- Segment-mean pooling as the kernel's host code spells it: the values scatter-added by segment id into zeros,
    divided by the scatter-added count of ones clamped below by `1.0`, the count repeated across the features. -/
def segMean (seg : (⟨S800000, .i32⟩ : BufTy).Contents (Elt Ideal)) (vals : (⟨S800000x128, .f32⟩ : BufTy).Contents (Elt Ideal)) :
    (⟨S16384x128, .f32⟩ : BufTy).Contents (Elt Ideal) :=
  Host.divf (F := Ideal)
    (Host.scatterAdd (F := Ideal) scatter_S16384x128_S800000x1_S800000x128_1_0_0_1
      (broadcastInDim S16384x128 ![] bcast_S_S16384x128 (constant (F := Ideal) S_ .f32 0x00000000#32))
      (broadcastInDim S800000x1 ![0] bcast_S800000_S800000x1_0 seg) vals)
    (broadcastInDim S16384x128 ![0, 1] bcast_S16384x1_S16384x128_0_1
      (broadcastInDim S16384x1 ![0] bcast_S16384_S16384x1_0
        (maximumf (F := Ideal)
          (Host.scatterAdd (F := Ideal) scatter_S16384_S800000x1_S800000_n_0_0_1
            (broadcastInDim S16384 ![] bcast_S_S16384 (constant (F := Ideal) S_ .f32 0x00000000#32))
            (broadcastInDim S800000x1 ![0] bcast_S800000_S800000x1_0 seg)
            (broadcastInDim S800000 ![] bcast_S_S800000 (constant (F := Ideal) S_ .f32 0x3F800000#32)))
          (broadcastInDim S16384 ![] bcast_S_S16384 (constant (F := Ideal) S_ .f32 0x3F800000#32)))))

/-- The reference's result stage is the segment mean of its gated-values stage: the same operations. -/
theorem segMean_vals (x0 : _) (x1 : _) (x2 : _) (x3 : _) (x4 : _) (x5 : _) (x6 : _) (x7 : _) (x8 : _) (x9 : _) (x10 : _) (x11 : _) (x12 : _) :
    segMean x4 (Cert.ReferenceIdeal.Read.val_main_v42 (F := Ideal) x0 x1 x2 x3 x5 x6 x7 x8 x9 x10 x11 x12)
      = Cert.ReferenceIdeal.Read.val_main_v54 (F := Ideal) x0 x1 x2 x3 x4 x5 x6 x7 x8 x9 x10 x11 x12 := rfl

/-- What the lines after the region find in the region's output array: the reference's gated-values stage. -/
theorem tail_vals (c : Dev nD) :
    Pipeline.withArrays (cfgs 0).spec c (V0 m c) (fun w => (dats m 0 c).arrAt w (cfgs 0).N) (Proc.devRef .tc main_v22)
      = Cert.ReferenceIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  ((Pipeline.withArrays_arr spec0 launch0.win.arr_inj c _ _ 11).trans (final m c)).trans (vals_bridge m c)

/-- The segment ids are no array of the region: the lines after it find them as launched. -/
theorem tail_seg (c : Dev nD) :
    Pipeline.withArrays (cfgs 0).spec c (V0 m c) (fun w => (dats m 0 c).arrAt w (cfgs 0).N) (Proc.devRef .tc main_arg4)
      = (m ((c : Thread nD τ).loc main_arg4)) :=
  (Pipeline.withArrays_of_ne _ c (V0 m c) _ main_arg4 (by exact (by decide : ∀ w, Pipeline.arrRef spec0 w ≠ main_arg4))).trans (V_main_arg4 m c)

/-- The kernel's result buffer: the segment mean of the gated values, which is the reference's result stage. -/
theorem result_eq (c : Dev nD) :
    Pipeline.afterTail₀ cfgs (dats m) 0 (V0 m) [hostOps1] c main_v34
      = Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  unfold Pipeline.afterTail₀
  show StableHlo.after hostOps1 _ (Proc.devRef .tc main_v34) = _
  after_results
  exact (congrArg₂ segMean (tail_seg m c) (tail_vals m c)).trans (segMean_vals _ _ _ _ _ _ _ _ _ _ _ _ _)

/-! ## The run -/

-- the launch state of the generated frame run is the claim's initial state up to unfolding plain definitions
set_option backward.isDefEq.respectTransparency.types false in
/-- Every weakly fair execution of the idealized kernel terminates with its result at the reference's result stage
    of the launched arguments, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v34) = Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_v34 (Pipeline.mem_restRefs_of main_v34 (by decide) (by decide))).trans (result_eq m c),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 4).trans (((dats m 0 c).arrAt_in 4 rfl _).trans ((A_eq m c 4).trans (V_main_arg6 m c))),
      (((h c).2 main_arg7 (Pipeline.mem_restRefs_of main_arg7 (by decide) (by decide))).trans (W_main_arg7 m (dats m) c)),
      ((h c).1 6).trans (((dats m 0 c).arrAt_in 6 rfl _).trans ((A_eq m c 6).trans (V_main_arg8 m c))),
      (((h c).2 main_arg9 (Pipeline.mem_restRefs_of main_arg9 (by decide) (by decide))).trans (W_main_arg9 m (dats m) c)),
      ((h c).1 8).trans (((dats m 0 c).arrAt_in 8 rfl _).trans ((A_eq m c 8).trans (V_main_arg10 m c))),
      (((h c).2 main_arg11 (Pipeline.mem_restRefs_of main_arg11 (by decide) (by decide))).trans (W_main_arg11 m (dats m) c)),
      ((h c).1 10).trans (((dats m 0 c).arrAt_in 10 rfl _).trans ((A_eq m c 10).trans (V_main_arg12 m c)))⟩) (run_main m ρ)

end Cert.KernelIdeal.EdgeResult

end
-- ==== Proof.lean ====
/-
  A molecular-graph edge gate with segment-mean pooling: the kernel and its reference compute one function on the
  extended reals.

  Both programs gather, for each of 800000 bonds, the feature rows of the bond's two endpoint atoms; form three
  128 → 128 projections U e, V x_i, W x_j with biases and a fourth projection A e with its bias; gate,
  vals = logistic(U e + b_U + V x_i + b_V + W x_j + b_W) · (A e + b_A); and pool by molecule: segment sums of vals
  divided by the segment counts clamped below by one. The kernel computes vals in a pipelined region over blocks of
  4000 bonds, with bf16 operands and products accumulated into zero; the reference computes it with whole-array
  host operations. On the extended reals a change of float format is the identity and every product is the exact
  sum over the 128 input features, so the two differ only in how the six gate terms are grouped (pairwise against
  left to right: associativity of addition, which holds at the infinities too) and in how the logistic is spelt
  (one operation against 1 / (1 + exp(−x)): its definition). The gathers before the region and the pooling after
  it are the same operations on both sides. No finiteness of the inputs is used.

  The three frames: the two kernel programs' are their generated frame runs; the reference has no kernel region,
  and its frame is its run read back with the result dropped. The kernel's idealization rewrote nothing, so
  `preserves` has nothing to state.
-/
import proofs.«109004_j22239340658703_1_alg».proof.Defs
import proofs.«109004_j22239340658703_1_alg».proof.Proof.Gen.Kernel
import proofs.«109004_j22239340658703_1_alg».proof.Proof.Gen.Kernel.Skeleton
import proofs.«109004_j22239340658703_1_alg».proof.Proof.Gen.Kernel.Launch
import proofs.«109004_j22239340658703_1_alg».proof.Proof.Gen.Kernel.Points
import proofs.«109004_j22239340658703_1_alg».proof.Proof.Gen.Kernel.Frame
import proofs.«109004_j22239340658703_1_alg».proof.Proof.Gen.KernelIdeal
import proofs.«109004_j22239340658703_1_alg».proof.Proof.Gen.KernelIdeal.Skeleton
import proofs.«109004_j22239340658703_1_alg».proof.Proof.Gen.KernelIdeal.Launch
import proofs.«109004_j22239340658703_1_alg».proof.Proof.Gen.KernelIdeal.Points
import proofs.«109004_j22239340658703_1_alg».proof.Proof.Gen.KernelIdeal.Frame
import proofs.«109004_j22239340658703_1_alg».proof.Proof.Gen.ReferenceIdeal
import proofs.«109004_j22239340658703_1_alg».proof.Proof.Gen.Pre_finite_inputs
import proofs.«109004_j22239340658703_1_alg».proof.Proof.Gen.ReferenceIdeal.Run
import proofs.«109004_j22239340658703_1_alg».proof.Proof.Gen.ReferenceIdeal.Read
import proofs.«109004_j22239340658703_1_alg».proof.Proof.EdgeResult
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference is host operations only: its run read back, the result clause dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result stage of the kernel's launched arguments: the kernel by its run
    read through the region and the lines after it, the reference by its own run, its arguments rewritten to the
    kernel's by the agreement of the two memories. -/
theorem algebraic : Cert.algebraic_KernelIdeal_ReferenceIdeal := by
  intro m ρ m' ρ' _ hagree
  refine ⟨fun c => Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.KernelIdeal.EdgeResult.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [h0, h1, h2, h3, h4, h5, h6, h7, h8, h9, h10, h11, h12]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
